-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S4096x4096 : Shape := ⟨2, ![4096, 4096]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x1024x4096 .f32) (main_arg1 : FVec F S4096x4096 .f32) (main_arg2 : IVec S4096x4096 32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x1024x4096 : Shape := ⟨3, ![4, 1024, 4096]⟩
abbrev S4096x4096 : Shape := ⟨2, ![4096, 4096]⟩
abbrev S128x32x128x32 : Shape := ⟨4, ![128, 32, 128, 32]⟩
abbrev S_ : Shape := ⟨0, ![]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4x1024x4096, .f32⟩
  | .hbm, ⟨1, _⟩ => ⟨S4096x4096, .f32⟩
  | .hbm, ⟨2, _⟩ => ⟨S4096x4096, .i32⟩
  | .hbm, ⟨3, _⟩ => ⟨S128x32x128x32, .i32⟩
  | .hbm, ⟨4, _⟩ => ⟨S128x32x128x32, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .i1⟩
  | .hbm, ⟨10, _⟩ => ⟨S128x32x128, .i1⟩
  | .hbm, ⟨11, _⟩ => ⟨S4096x128, .i1⟩
  | .hbm, ⟨12, _⟩ => ⟨S4096x128x32, .i1⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S4096x4096, .bf16⟩
  | .hbm, ⟨19, _⟩ => ⟨S4096x4096, .f32⟩
  | .hbm, ⟨20, _⟩ => ⟨S4x1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4096x4096_S128x32x128x32 : S4096x4096.ShapeCasts S128x32x128x32
  reducesTo_S128x32x128x32_S128x128_d1_3 : S128x32x128x32.ReducesTo [1, 3] S128x128
  h_S_ : 0 < S_.numel
  bcast_S_S128x128 : S_.BroadcastsInDim S128x128 (![] : Fin 0 → Fin S128x128.rank)
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  shapeCasts_S4x1024x4096_S4096x4096 : S4x1024x4096.ShapeCasts S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x4096_S4x1024x4096 : S4096x4096.ShapeCasts S4x1024x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x1024x4096 : Shape := ⟨3, ![4, 1024, 4096]⟩
abbrev S4096x4096 : Shape := ⟨2, ![4096, 4096]⟩
abbrev S128x32x128x32 : Shape := ⟨4, ![128, 32, 128, 32]⟩
abbrev S_ : Shape := ⟨0, ![]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩

abbrev nBuf : Space → Nat
  | .hbm => 17
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S4096x4096, .f32⟩
  | .hbm, ⟨2, _⟩ => ⟨S4096x4096, .i32⟩
  | .hbm, ⟨3, _⟩ => ⟨S128x32x128x32, .i32⟩
  | .hbm, ⟨4, _⟩ => ⟨S128x32x128x32, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .i1⟩
  | .hbm, ⟨10, _⟩ => ⟨S128x32x128, .i1⟩
  | .hbm, ⟨11, _⟩ => ⟨S4096x128, .i1⟩
  | .hbm, ⟨12, _⟩ => ⟨S4096x128x32, .i1⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S4x1024x4096, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S4096x4096_S128x32x128x32 : S4096x4096.ShapeCasts S128x32x128x32
  reducesTo_S128x32x128x32_S128x128_d1_3 : S128x32x128x32.ReducesTo [1, 3] S128x128
  h_S_ : 0 < S_.numel
  bcast_S_S128x128 : S_.BroadcastsInDim S128x128 (![] : Fin 0 → Fin S128x128.rank)
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  dot_S4x1024x4096_S4096x4096_S4x1024x4096_2_1_01_0_n_n_wf : DotDims.WF S4x1024x4096 S4096x4096 S4x1024x4096 [2] [1] [0, 1] [0] [] []

variable [Facts₀]

def dot_S4x1024x4096_S4096x4096_S4x1024x4096_2_1_01_0_n_n : DotDims S4x1024x4096 S4096x4096 S4x1024x4096 where
  lhsContracting := [2]
  rhsContracting := [1]
  lhsNonContracting := [0, 1]
  rhsNonContracting := [0]
  lhsBatch := []
  rhsBatch := []
  wf := dot_S4x1024x4096_S4096x4096_S4x1024x4096_2_1_01_0_n_n_wf

class Facts : Prop extends Facts₀ where

variable [Facts]
-- ==== Proof.Pieces.lean ====
/-
  What the body leaves in the accumulator (and, at a run's last point, in the output block), case by case, as ONE
  value: the body's one arithmetic term applied to the point's two input blocks and to what the accumulator held —
  the zero block at a run's first point, where the body has just stored it.
-/
import proofs.«121753_j60327110639757_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A run's FIRST point (the accumulator is reset, then updated): the update reads back the zero block. -/
theorem sout_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz]
  simp only [View.readAt_eq_ld, h3.read_unread, h4.read_unread, View.ld_unit_zero (S := S1024x1024) hz,
    View.readCov_unit_zero (S := S1024x1024) _ hz]

/-- A MIDDLE point: the update over what the point before left. -/
theorem sout_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- A run's LAST point: the same update … -/
theorem sout_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- … and the output block receives the updated accumulator, read back whole. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

end Cert.KernelIdeal.Pieces

end
-- ==== Proof.Accum.lean ====
/-
  The accumulator across the grid.  The 64 grid points run in order; the last grid axis (the run of 1024 columns
  contracted at the point) moves fastest, so the points come in 16 runs of four.  A run's first point resets the
  accumulator to zero and adds its blocks' product; each later point adds its own to what the point before left; the
  run's last point also hands the accumulator to the output block.  So after point `n` the accumulator holds the
  body's update applied, in order, to the points of `n`'s run up to `n` (`acc`), and at a run's last point the
  output block holds the same.  By induction on the point, for any float instance.
-/
import proofs.«121753_j60327110639757_1_alg».proof.Proof.Pieces

noncomputable section

namespace Cert.KernelIdeal.Acc

open Cert.KernelIdeal Cert.KernelIdeal.Gen Cert.KernelIdeal.Pieces Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The two input blocks of point `t`, at their literal type. -/
abbrev ablk (c : Dev nD) (t : Fin cfg0.N) : Vec F S1024x1024 .bf16 := iblk m c 0 t
abbrev bblk (c : Dev nD) (t : Fin cfg0.N) : Vec F S1024x1024 .bf16 := iblk m c 1 t

/-- The accumulator after point `n`: the update of point `n` over the zero block at a run's first point, over the
    accumulator after point `n - 1` otherwise. -/
def acc (c : Dev nD) : (n : ℕ) → n < cfg0.N → Vec F S1024x1024 .f32
  | 0, h => k0_pay2 (ablk m c ⟨0, h⟩) (bblk m c ⟨0, h⟩) (k0_pay1 (F := F))
  | n + 1, h => k0_pay2 (ablk m c ⟨n + 1, h⟩) (bblk m c ⟨n + 1, h⟩)
      (if (n + 1) % 4 = 0 then k0_pay1 (F := F) else acc c n (Nat.lt_of_succ_lt h))

theorem acc_first (c : Dev nD) (n : ℕ) (h : n < cfg0.N) (h0 : n % 4 = 0) :
    acc m c n h = k0_pay2 (ablk m c ⟨n, h⟩) (bblk m c ⟨n, h⟩) (k0_pay1 (F := F)) := by
  cases n with
  | zero => rfl
  | succ n => unfold acc; rw [if_pos h0]

theorem acc_next (c : Dev nD) (n : ℕ) (h : n + 1 < cfg0.N) (h0 : ¬(n + 1) % 4 = 0) :
    acc m c (n + 1) h = k0_pay2 (ablk m c ⟨n + 1, h⟩) (bblk m c ⟨n + 1, h⟩) (acc m c n (Nat.lt_of_succ_lt h)) := by
  rw [acc]; rw [if_neg h0]

/-- What the frame's run says the accumulator holds after point `n` is `acc`. -/
theorem scratch_eq (c : Dev nD) : ∀ (n : ℕ) (h : n < cfg0.N), (outsAt0 m c n h).2 = acc m c n h
  | 0, h => by
    rw [outsAt0_A m c ⟨0, h⟩ rfl (by show ¬(0 % 4 = 3); decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)
  | n + 1, h => by
    by_cases h0 : (n + 1) % 4 = 0
    · have h1 : ¬(n + 1) % 4 = 3 := by omega
      rw [outsAt0_A m c ⟨n + 1, h⟩ h0 h1, acc_first m c (n + 1) h h0]
      dsimp only
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        scM0_0 (Memref.isWhole_whole _) _ _ (iblk m c 0 ⟨n + 1, h⟩) (iblk m c 1 ⟨n + 1, h⟩)
    · have ih := scratch_eq c n (Nat.lt_of_succ_lt h)
      rw [acc_next m c n h h0, ← ih]
      by_cases h1 : (n + 1) % 4 = 3
      · rw [outsAt0_C m c ⟨n + 1, h⟩ h0 h1]
        dsimp only
        exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          scM0_0 (Memref.isWhole_whole _) _ _ (iblk m c 0 ⟨n + 1, h⟩) (iblk m c 1 ⟨n + 1, h⟩) (outsAt0 m c n (Nat.lt_of_succ_lt h)).2
      · rw [outsAt0_B m c ⟨n + 1, h⟩ h0 h1]
        dsimp only
        exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          scM0_0 (Memref.isWhole_whole _) _ _ (iblk m c 0 ⟨n + 1, h⟩) (iblk m c 1 ⟨n + 1, h⟩) (outsAt0 m c n (Nat.lt_of_succ_lt h)).2

/-- At a run's last point the output block holds the accumulator. -/
theorem out_eq (c : Dev nD) (n : ℕ) (h : n < cfg0.N) (h1 : n % 4 = 3) : (outsAt0 m c n h).1 = acc m c n h := by
  cases n with
  | zero => exact absurd h1 (by decide)
  | succ n =>
    have h0 : ¬(n + 1) % 4 = 0 := by omega
    rw [acc_next m c n h h0, ← scratch_eq m c n (Nat.lt_of_succ_lt h), outsAt0_C m c ⟨n + 1, h⟩ h0 h1]
    dsimp only
    exact out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      scM0_0 (Memref.isWhole_whole _) _ _ (iblk m c 0 ⟨n + 1, h⟩) (iblk m c 1 ⟨n + 1, h⟩) (outsAt0 m c n (Nat.lt_of_succ_lt h)).2

/-- A run's four updates, in order, at its last point `4 g + 3`. -/
theorem acc_last (c : Dev nD) (g : ℕ) (h : 4 * g + 3 < cfg0.N) :
    acc m c (4 * g + 3) h
      = k0_pay2 (ablk m c ⟨4 * g + 3, h⟩) (bblk m c ⟨4 * g + 3, h⟩)
          (k0_pay2 (ablk m c ⟨4 * g + 2, by omega⟩) (bblk m c ⟨4 * g + 2, by omega⟩)
            (k0_pay2 (ablk m c ⟨4 * g + 1, by omega⟩) (bblk m c ⟨4 * g + 1, by omega⟩)
              (k0_pay2 (ablk m c ⟨4 * g, by omega⟩) (bblk m c ⟨4 * g, by omega⟩) (k0_pay1 (F := F))))) := by
  rw [acc_next m c (4 * g + 2) h (by omega), acc_next m c (4 * g + 1) (by omega) (by omega),
    acc_next m c (4 * g) (by omega) (by omega), acc_first m c (4 * g) (by omega) (by omega)]

end Cert.KernelIdeal.Acc

end
-- ==== Proof.Payload.lean ====
/-
  The kernel body's arithmetic read at one element, over the extended reals.

  At every grid point the body adds to the accumulator block `xs` the product of the point's two input blocks, contracting
  the second axis of both: element `(p, q)` of what it stores is `xs (p, q) + ∑ k, x0 (p, k) * x1 (q, k)`, the sum over the
  1024 columns of the blocks.  The block the first point of a run stores before that is all zeros.
-/
import proofs.«121753_j60327110639757_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The product's left operand is read at the output's row … -/
theorem lhs_mm_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and the contracted column; -/
theorem lhs_mm_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand at the output's COLUMN as its row (the product is with the transpose) … -/
theorem rhs_mm_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and the contracted column. -/
theorem rhs_mm_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator, at an element: the sum over the blocks' 1024 columns. -/
theorem mm_apply (x0 x1 : FVec Ideal S1024x1024 .bf16) (i : S1024x1024.Idx) :
    matmul (F := Ideal) dot_S1024x1024_S1024x1024_S1024x1024_1_1_0_0_n_n none x0 x1 (constant S1024x1024 .f32 0x00000000#32) i
      = ∑ k : Fin 1024, x0 (ix2 (i 0) k) * x1 (ix2 (i 1) k) := by
  show FloatOps.matmul dot_S1024x1024_S1024x1024_S1024x1024_1_1_0_0_n_n none x0 x1 (constant S1024x1024 .f32 0x00000000#32) i = _
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx i ((ValueIdx.contrEquiv1 dot_S1024x1024_S1024x1024_S1024x1024_1_1_0_0_n_n 1024 rfl rfl).symm k) = ix2 (i 0) k := funext fun a => Fin.ext (by
    match a with
    | ⟨0, _⟩ => exact lhs_mm_0 _ _
    | ⟨1, _⟩ => exact (lhs_mm_1 _ _).trans hk)
  have er : dot_S1024x1024_S1024x1024_S1024x1024_1_1_0_0_n_n.rhsIdx i ((ValueIdx.contrEquiv1 dot_S1024x1024_S1024x1024_S1024x1024_1_1_0_0_n_n 1024 rfl rfl).symm k) = ix2 (i 1) k := funext fun a => Fin.ext (by
    match a with
    | ⟨0, _⟩ => exact rhs_mm_0 _ _
    | ⟨1, _⟩ => exact (rhs_mm_1 _ _).trans hk)
  rw [el, er]
  rfl

/-- What every point stores into the accumulator, at element `(p, q)`: what was there plus the blocks' product. -/
theorem pay2_apply (x0 x1 : Vec Ideal S1024x1024 .bf16) (xs : Vec Ideal S1024x1024 .f32) (p q : Fin 1024) :
    k0_pay2 (F := Ideal) x0 x1 xs (ix2 p q) = xs (ix2 p q) + ∑ k : Fin 1024, x0 (ix2 p k) * x1 (ix2 q k) := by
  unfold k0_pay2
  simp only [shapeCast_self]
  show xs (ix2 p q) + matmul (F := Ideal) dot_S1024x1024_S1024x1024_S1024x1024_1_1_0_0_n_n none x0 x1 (constant S1024x1024 .f32 0x00000000#32) (ix2 p q) = _
  rw [mm_apply]

/-- The block a run's first point stores first: zero everywhere. -/
theorem pay1_apply (j : S1024x1024.Idx) : k0_pay1 (F := Ideal) j = 0 := by
  unfold k0_pay1
  simp only [shapeCast_self]
  show Ideal.ofBits .f32 0x00000000#32 = 0
  exact Ideal.ofBits_zero_f32

end Cert.KernelIdeal.Body

end
-- ==== Proof.Spec.lean ====
/-
  The arithmetic both programs share, free of either program's text.

  For two square arrays `a`, `b` of extent 4096 the entry `(r, n)` of `a · bᵀ` is the sum over the 4096 columns
  `k` of `a (r, k) * b (n, k)` (`rowDot`).  The columns split into four consecutive runs of 1024 (`kcol`), and the
  sum over all columns is the sum of the four partial sums over the runs, added in order (`rowDot_eq_blocks`):
  addition of extended reals is commutative and associative, so no finiteness is needed.
-/
import Idealize.ShloMosaic.Lib.ValueIdx

noncomputable section

open scoped BigOperators

namespace Cert.MaskedMatmul

open Idealize.ShloMosaic Idealize.ShloMosaic.ValueIdx

/-- The square arrays' shape and a block's shape. -/
abbrev Sq : Shape := ⟨2, ![4096, 4096]⟩
abbrev Blk : Shape := ⟨2, ![1024, 1024]⟩

/-- Column `q` of the `kk`-th run of 1024 columns. -/
def kcol (kk : Fin 4) (q : Fin 1024) : Fin 4096 :=
  ⟨1024 * kk.val + q.val, by have := kk.isLt; have := q.isLt; omega⟩

theorem kcol_val (kk : Fin 4) (q : Fin 1024) : (kcol kk q).val = 1024 * kk.val + q.val := rfl

/-- Row `g`-th block's row `p`: the row `1024 g + p` of the square array. -/
def brow (g : Fin 4) (p : Fin 1024) : Fin 4096 :=
  ⟨1024 * g.val + p.val, by have := g.isLt; have := p.isLt; omega⟩

theorem brow_val (g : Fin 4) (p : Fin 1024) : (brow g p).val = 1024 * g.val + p.val := rfl

/-- A column is a run and a place in the run. -/
def kEquiv : Fin 4 × Fin 1024 ≃ Fin 4096 where
  toFun p := kcol p.1 p.2
  invFun k := (⟨k.val / 1024, by have := k.isLt; omega⟩, ⟨k.val % 1024, Nat.mod_lt _ (by decide)⟩)
  left_inv p := by
    obtain ⟨kk, q⟩ := p
    have h1 := kk.isLt
    have h2 := q.isLt
    refine Prod.ext (Fin.ext ?_) (Fin.ext ?_)
    · show (1024 * kk.val + q.val) / 1024 = kk.val
      omega
    · show (1024 * kk.val + q.val) % 1024 = q.val
      omega
  right_inv k := by
    apply Fin.ext
    show 1024 * (k.val / 1024) + k.val % 1024 = k.val
    omega

/-- A sum over the 4096 columns is the four sums over the runs, in order. -/
theorem sum_cols (f : Fin 4096 → EReal) :
    ∑ k, f k = ((∑ q, f (kcol 0 q) + ∑ q, f (kcol 1 q)) + ∑ q, f (kcol 2 q)) + ∑ q, f (kcol 3 q) := by
  rw [← Equiv.sum_comp kEquiv f, Fintype.sum_prod_type, Fin.sum_univ_four]
  rfl

/-- Entry `(r, n)` of `a · bᵀ`. -/
def rowDot (a b : Sq.Idx → EReal) (r n : Fin 4096) : EReal :=
  ∑ k : Fin 4096, a (ix2 r k) * b (ix2 n k)

/-- The part of that entry the `kk`-th run of columns contributes. -/
def blkDot (a b : Sq.Idx → EReal) (r n : Fin 4096) (kk : Fin 4) : EReal :=
  ∑ q : Fin 1024, a (ix2 r (kcol kk q)) * b (ix2 n (kcol kk q))

theorem rowDot_eq_blocks (a b : Sq.Idx → EReal) (r n : Fin 4096) :
    rowDot a b r n = ((blkDot a b r n 0 + blkDot a b r n 1) + blkDot a b r n 2) + blkDot a b r n 3 :=
  sum_cols fun k => a (ix2 r k) * b (ix2 n k)

/-- The whole product as an array. -/
def prodT (a b : Sq.Idx → EReal) : Sq.Idx → EReal := fun j => rowDot a b (j 0) (j 1)

end Cert.MaskedMatmul

end
-- ==== Proof.Blocks.lean ====
/-
  From blocks to the array, over the extended reals.

  The region finds two square arrays: `arrA` (the data, its 4 × 1024 rows laid out as 4096) and `arrB` (the masked
  weight).  Point `t` of the grid, with `t = 16 r + 4 n + kk`, reads block `(r, kk)` of `arrA` and block `(n, kk)`
  of `arrB`; a run of four points shares `r` and `n` and walks `kk` over the four runs of 1024 columns.  So at a run's
  last point the accumulator, and with it the output block, holds at `(p, q)` the sum of the four partial dot products
  of row `1024 r + p` of `arrA` with row `1024 n + q` of `arrB`, which is the whole dot product.  The sixteen output
  blocks tile the output array, so it ends holding `arrA · arrBᵀ`.
-/
import proofs.«121753_j60327110639757_1_alg».proof.Proof.Accum
import proofs.«121753_j60327110639757_1_alg».proof.Proof.Payload
import proofs.«121753_j60327110639757_1_alg».proof.Proof.Spec

noncomputable section

open scoped BigOperators

namespace Cert.KernelIdeal.Arr

open Cert.KernelIdeal Cert.KernelIdeal.Gen Cert.KernelIdeal.Acc Cert.KernelIdeal.Body Cert.MaskedMatmul
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The two arrays the region reads, as it finds them. -/
abbrev arrA (c : Dev nD) : Vec Ideal S4096x4096 .bf16 := V m c main_v12
abbrev arrB (c : Dev nD) : Vec Ideal S4096x4096 .bf16 := V m c main_v13

/-- The printed index maps over the 64 points: the row block, the column block and the run of columns. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- Point `t`'s block of `arrA`: rows of row block `r`, columns of run `kk`. -/
theorem ablk_apply (c : Dev nD) (t : Fin cfg0.N) (r kk : Fin 4) (hr : t.val / 16 = r.val) (hk : t.val % 4 = kk.val)
    (p k : Fin 1024) : ablk m c t (ix2 p k) = arrA m c (ix2 (brow r p) (kcol kk k)) := by
  obtain ⟨e0, e1, -, -, -, -⟩ := idx_facts t
  show iblk m c 0 t (ix2 p k) = _
  unfold iblk
  rw [View.read_apply]
  show V m c main_v12 (((cfg0.win 0).blk t).view.emb (ix2 p k)) = V m c main_v12 _
  refine congrArg (V m c main_v12) (funext fun a => Fin.ext ?_)
  match a with
  | ⟨0, _⟩ => show win0_0.index t (0 : Fin 2) * 1024 + 1 * p.val = 1024 * r.val + p.val; omega
  | ⟨1, _⟩ => show win0_0.index t (1 : Fin 2) * 1024 + 1 * k.val = 1024 * kk.val + k.val; omega

/-- Point `t`'s block of `arrB`: rows of row block `n` (the output's column block), columns of run `kk`. -/
theorem bblk_apply (c : Dev nD) (t : Fin cfg0.N) (n kk : Fin 4) (hn : t.val / 4 % 4 = n.val) (hk : t.val % 4 = kk.val)
    (q k : Fin 1024) : bblk m c t (ix2 q k) = arrB m c (ix2 (brow n q) (kcol kk k)) := by
  obtain ⟨-, -, e2, e3, -, -⟩ := idx_facts t
  show iblk m c 1 t (ix2 q k) = _
  unfold iblk
  rw [View.read_apply]
  show V m c main_v13 (((cfg0.win 1).blk t).view.emb (ix2 q k)) = V m c main_v13 _
  refine congrArg (V m c main_v13) (funext fun a => Fin.ext ?_)
  match a with
  | ⟨0, _⟩ => show win0_1.index t (0 : Fin 2) * 1024 + 1 * q.val = 1024 * n.val + q.val; omega
  | ⟨1, _⟩ => show win0_1.index t (1 : Fin 2) * 1024 + 1 * k.val = 1024 * kk.val + k.val; omega

/-- The product of point `t`'s blocks at `(p, q)`: run `kk`'s part of the dot product of the two rows. -/
theorem blk_term (c : Dev nD) (t : Fin cfg0.N) (r n kk : Fin 4) (hr : t.val / 16 = r.val) (hn : t.val / 4 % 4 = n.val)
    (hk : t.val % 4 = kk.val) (p q : Fin 1024) :
    ∑ k : Fin 1024, ablk m c t (ix2 p k) * bblk m c t (ix2 q k)
      = blkDot (arrA m c) (arrB m c) (brow r p) (brow n q) kk := by
  unfold blkDot
  exact Finset.sum_congr rfl fun k _ => by rw [ablk_apply m c t r kk hr hk, bblk_apply m c t n kk hn hk]

/-- The accumulator at the last point `4 g + 3` of a run, at `(p, q)`: the whole dot product of the two rows. -/
theorem acc_apply (c : Dev nD) (g : ℕ) (h : 4 * g + 3 < cfg0.N) (r n : Fin 4) (hr : g / 4 = r.val) (hn : g % 4 = n.val)
    (p q : Fin 1024) :
    acc m c (4 * g + 3) h (ix2 p q) = rowDot (arrA m c) (arrB m c) (brow r p) (brow n q) := by
  rw [acc_last m c g h, pay2_apply, pay2_apply, pay2_apply, pay2_apply, pay1_apply, zero_add,
    blk_term m c ⟨4 * g + 3, h⟩ r n 3 (by show (4 * g + 3) / 16 = _; omega) (by show (4 * g + 3) / 4 % 4 = _; omega) (by show (4 * g + 3) % 4 = 3; omega),
    blk_term m c ⟨4 * g + 2, by omega⟩ r n 2 (by show (4 * g + 2) / 16 = _; omega) (by show (4 * g + 2) / 4 % 4 = _; omega) (by show (4 * g + 2) % 4 = 2; omega),
    blk_term m c ⟨4 * g + 1, by omega⟩ r n 1 (by show (4 * g + 1) / 16 = _; omega) (by show (4 * g + 1) / 4 % 4 = _; omega) (by show (4 * g + 1) % 4 = 1; omega),
    blk_term m c ⟨4 * g, by omega⟩ r n 0 (by show (4 * g) / 16 = _; omega) (by show (4 * g) / 4 % 4 = _; omega) (by show (4 * g) % 4 = 0; omega),
    rowDot_eq_blocks]

/-- WHAT A RUN'S LAST POINT WRITES BACK is its block of `arrA · arrBᵀ`. -/
theorem flushed_eq (c : Dev nD) (t : Fin cfg0.N) (hf : (cfg0.win 2).flush t = true) :
    (dats m 0 c).flushed 2 t = ((cfg0.win 2).blk t).view.read (Elt Ideal) (prodT (arrA m c) (arrB m c)) := by
  have hN : cfg0.N = 64 := N_0
  have h3 : t.val % 4 = 3 := (flush0_2 t).mp hf
  obtain ⟨-, -, -, -, e4, e5⟩ := idx_facts t
  show (cfg0.win 2).cut (grid0.coords t) ((dats m 0 c).after 2 t) = _
  rw [after0_2, out_eq m c t.val t.isLt h3]
  obtain ⟨n, hn⟩ := t
  have hlt : n < 64 := lt_of_lt_of_eq hn hN
  obtain ⟨g, rfl⟩ : ∃ g, n = 4 * g + 3 := ⟨n / 4, by dsimp only at h3; omega⟩
  funext y
  obtain ⟨p, q, rfl⟩ : ∃ (p q : Fin 1024), y = ix2 p q := ⟨y 0, y 1, eq_ix2 y⟩
  show acc m c (4 * g + 3) hn (ix2 p q) = _
  rw [acc_apply m c g hn ⟨g / 4, by omega⟩ ⟨g % 4, by omega⟩ rfl rfl, View.read_apply]
  show _ = rowDot (arrA m c) (arrB m c) ((((cfg0.win 2).blk ⟨4 * g + 3, hn⟩).view.emb (ix2 p q)) 0) ((((cfg0.win 2).blk ⟨4 * g + 3, hn⟩).view.emb (ix2 p q)) 1)
  congr 1
  · apply Fin.ext
    show 1024 * (g / 4) + p.val = win0_2.index ⟨4 * g + 3, hn⟩ (0 : Fin 2) * 1024 + 1 * p.val
    dsimp only at e4
    omega
  · apply Fin.ext
    show 1024 * (g % 4) + q.val = win0_2.index ⟨4 * g + 3, hn⟩ (1 : Fin 2) * 1024 + 1 * q.val
    dsimp only at e5
    omega

/-- An index of the output array is in point `t`'s block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v14).slice (win0_2.rect t)).set ↔ _
  rw [View.set_slice_whole, Rect.mem_set_unit]
  exact Iff.rfl

/-- THE OUTPUT ARRAY after the region: `arrA · arrBᵀ` (entry `(i₀, i₁)` lies in the block the run
    `(i₀ / 1024, i₁ / 1024)` writes back at its last point). -/
theorem final (c : Dev nD) : (dats m 0 c).arrAt 2 cfg0.N = prodT (arrA m c) (arrB m c) :=
  (dats m 0 c).arrAt_eq_of_cover 2 (prodT (arrA m c) (arrB m c)) (flushed_eq m c) fun i => by
    have hN : cfg0.N = 64 := N_0
    have hi0 : (i 0).val < 4096 := (i 0).isLt
    have hi1 : (i 1).val < 4096 := (i 1).isLt
    have hlt : 16 * ((i 0).val / 1024) + 4 * ((i 1).val / 1024) + 3 < cfg0.N := by rw [hN]; omega
    refine ⟨⟨16 * ((i 0).val / 1024) + 4 * ((i 1).val / 1024) + 3, hlt⟩, (flush0_2 _).mpr (by show (16 * ((i 0).val / 1024) + 4 * ((i 1).val / 1024) + 3) % 4 = 3; omega), ?_⟩
    rw [mem_blk]
    obtain ⟨-, -, -, -, e4, e5⟩ := idx_facts ⟨16 * ((i 0).val / 1024) + 4 * ((i 1).val / 1024) + 3, hlt⟩
    dsimp only at e4 e5
    intro a
    match a with
    | ⟨0, _⟩ =>
      show win0_2.index ⟨16 * ((i 0).val / 1024) + 4 * ((i 1).val / 1024) + 3, hlt⟩ (0 : Fin 2) * 1024 ≤ (i 0).val ∧ (i 0).val < win0_2.index ⟨16 * ((i 0).val / 1024) + 4 * ((i 1).val / 1024) + 3, hlt⟩ (0 : Fin 2) * 1024 + 1024
      omega
    | ⟨1, _⟩ =>
      show win0_2.index ⟨16 * ((i 0).val / 1024) + 4 * ((i 1).val / 1024) + 3, hlt⟩ (1 : Fin 2) * 1024 ≤ (i 1).val ∧ (i 1).val < win0_2.index ⟨16 * ((i 0).val / 1024) + 4 * ((i 1).val / 1024) + 3, hlt⟩ (1 : Fin 2) * 1024 + 1024
      omega

end Cert.KernelIdeal.Arr

end
-- ==== Proof.Result.lean ====
/-
  The value both programs compute: for the data `d` (4 × 1024 rows of 4096) and the masked weight `w` (4096 rows of
  4096), entry `(b, s, n)` is `∑ k, d (b, s, k) * w (n, k)`.  Laying the data's rows out as one square array (row
  `1024 b + s`) turns it into the product with the transpose of `Spec.lean`.
-/
import proofs.«121753_j60327110639757_1_alg».proof.Proof.Spec

noncomputable section

open scoped BigOperators

namespace Cert.MaskedMatmul

open Idealize.ShloMosaic Idealize.ShloMosaic.ValueIdx

/-- The data's and the result's shape. -/
abbrev Dat3 : Shape := ⟨3, ![4, 1024, 4096]⟩

/-- The result. -/
def result (d : Dat3.Idx → EReal) (w : Sq.Idx → EReal) : Dat3.Idx → EReal :=
  fun i => ∑ k : Fin 4096, d (ix3 (i 0) (i 1) k) * w (ix2 (i 2) k)

/-- If the square array `a` holds the data's row `(b, s)` as its row `1024 b + s`, then `a · wᵀ` at
    `(1024 b + s, n)` is the result at `(b, s, n)`. -/
theorem prodT_flat (d : Dat3.Idx → EReal) (w a : Sq.Idx → EReal)
    (ha : ∀ (b : Fin 4) (s : Fin 1024) (k : Fin 4096), a (ix2 (brow b s) k) = d (ix3 b s k)) (i : Dat3.Idx) :
    prodT a w (ix2 (brow (i 0) (i 1)) (i 2)) = result d w i := by
  show ∑ k : Fin 4096, a (ix2 (brow (i 0) (i 1)) k) * w (ix2 (i 2) k) = ∑ k : Fin 4096, d (ix3 (i 0) (i 1) k) * w (ix2 (i 2) k)
  exact Finset.sum_congr rfl fun k _ => congrArg (fun x => x * w (ix2 (i 2) k)) (ha (i 0) (i 1) k)

end Cert.MaskedMatmul

end
-- ==== Proof.KernelValue.lean ====
/-
  The idealized kernel's run, read as a value.

  Before the region @main builds the masked weight (`wmask`: the weight times the 0/1 array that keeps a 32 × 32 tile
  exactly when its tile of the mask has a positive sum) and lays the data's 4 × 1024 rows out as a square array; both
  are then narrowed, which changes no value over the extended reals.  The region leaves the product of the first
  with the transpose of the second (Blocks.lean), and the one operation after it lays that out as 4 × 1024 rows again.
  So the result at `(b, s, n)` is `∑ k, data (b, s, k) * wmask (n, k)`.
-/
import proofs.«121753_j60327110639757_1_alg».proof.Proof.Blocks
import proofs.«121753_j60327110639757_1_alg».proof.Proof.Result
import Idealize.ShloMosaic.Lib.StableHlo.Run

noncomputable section

open scoped BigOperators

namespace Cert.KernelIdeal.Val

open Cert.KernelIdeal Cert.KernelIdeal.Gen Cert.MaskedMatmul
open Idealize.ShloMosaic Idealize.ShloMosaic.TcCoe Idealize.ShloMosaic.ValueIdx Idealize.SL.Sem Idealize.ShloMosaic.StableHlo
open Idealize.ShloMosaic.Pipeline (Dat)

section AnyFloat
variable {F : FTy → Type} [FloatOps F]

/-- The masked weight, as @main computes it from the weight and the mask. -/
def wmask (x1 : (⟨S4096x4096, .f32⟩ : BufTy).Contents (Elt F)) (x2 : (⟨S4096x4096, .i32⟩ : BufTy).Contents (Elt F)) :
    (⟨S4096x4096, .f32⟩ : BufTy).Contents (Elt F) :=
  mulf (x1) (uitofp (F := F) .f32 (shapeCast _ (broadcastInDim S4096x128x32 ![0, 1] bcast_S4096x128_S4096x128x32_0_1 (shapeCast _ (broadcastInDim S128x32x128 ![0, 2] bcast_S128x128_S128x32x128_0_2 (cmpf (F := F) .ogt (Host.reduceAdd (sitofp (F := F) .f32 (shapeCast _ (x2) shapeCasts_S4096x4096_S128x32x128x32)) (constant S_ .f32 0x00000000#32) reducesTo_S128x32x128x32_S128x128_d1_3 h_S_) (broadcastInDim S128x128 ![] bcast_S_S128x128 (constant S_ .f32 0x00000000#32)))) shapeCasts_S128x32x128_S4096x128)) shapeCasts_S4096x128x32_S4096x4096))

variable (m : (ℓ : Loc nD τ sig) → Buf (Elt F) ℓ)

/-- The data, laid out square and narrowed, as the region finds it. -/
theorem arrA_eq (c : Dev nD) : (V m c main_v12 : Vec F S4096x4096 .bf16)
    = truncf .bf16 (shapeCast S4096x4096 (m ((c : Thread nD τ).loc main_arg0)) shapeCasts_S4x1024x4096_S4096x4096) bitsLt_bf16_f32 := by
  show StableHlo.after hostOps0 (fun b => m (c, b)) (Proc.devRef .tc main_v12) = _
  after_results
  rfl

/-- The masked weight, narrowed, as the region finds it. -/
theorem arrB_eq (c : Dev nD) : (V m c main_v13 : Vec F S4096x4096 .bf16)
    = truncf .bf16 (wmask (m ((c : Thread nD τ).loc main_arg1)) (m ((c : Thread nD τ).loc main_arg2))) bitsLt_bf16_f32 := by
  unfold wmask
  show StableHlo.after hostOps0 (fun b => m (c, b)) (Proc.devRef .tc main_v13) = _
  after_results
  rfl

/-- The result buffer after @main: the region's output array laid out as 4 × 1024 rows. -/
theorem tail_eq (c : Dev nD) : Pipeline.afterTail₀ cfgs (dats m) 0 (V0 m) [hostOps1] c main_v15
    = shapeCast S4x1024x4096 ((dats m 0 c).arrAt 2 cfg0.N) shapeCasts_S4096x4096_S4x1024x4096 := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14)
      = (dats m 0 c).arrAt 2 cfg0.N :=
    Pipeline.withArrays_arr spec0 launch0.win.arr_inj c (V0 m c) (fun w => (dats m 0 c).arrAt w (cfgs 0).N) 2
  rw [e]
  rfl

end AnyFloat

/-! ## Over the extended reals -/

variable (m : (ℓ : Loc nD τ sig) → Buf (Elt Ideal) ℓ) (ρ : Dev nD → PrngReg)

/-- Row `1024 b + s` of the square array is the data's row `(b, s)`. -/
theorem arrA_apply (c : Dev nD) (b : Fin 4) (s : Fin 1024) (k : Fin 4096) :
    Arr.arrA m c (ix2 (brow b s) k) = m ((c : Thread nD τ).loc main_arg0) (ix3 b s k) := by
  show (V m c main_v12 : Vec Ideal S4096x4096 .bf16) (ix2 (brow b s) k) = _
  rw [arrA_eq]
  show shapeCast S4096x4096 (m ((c : Thread nD τ).loc main_arg0)) shapeCasts_S4x1024x4096_S4096x4096 (ix2 (brow b s) k) = _
  exact shapeCast_apply _ shapeCasts_S4x1024x4096_S4096x4096 (ix2 (brow b s) k) (ix3 b s k)
    (by rewrite [Shape.rowMajor_val_three, Shape.rowMajor_val_two]
        show (b.val * 1024 + s.val) * 4096 + k.val = (1024 * b.val + s.val) * 4096 + k.val
        omega)

/-- The second array is the masked weight. -/
theorem arrB_fun (c : Dev nD) :
    (Arr.arrB m c : Sq.Idx → EReal) = wmask (m ((c : Thread nD τ).loc main_arg1)) (m ((c : Thread nD τ).loc main_arg2)) := by
  show (V m c main_v13 : Vec Ideal S4096x4096 .bf16) = _
  rw [arrB_eq]
  rfl

/-- The result buffer after @main, as one function of the arguments. -/
theorem result_eq (c : Dev nD) : Pipeline.afterTail₀ cfgs (dats m) 0 (V0 m) [hostOps1] c main_v15
    = result (m ((c : Thread nD τ).loc main_arg0)) (wmask (m ((c : Thread nD τ).loc main_arg1)) (m ((c : Thread nD τ).loc main_arg2))) := by
  rw [tail_eq, Arr.final]
  funext i
  rw [← arrB_fun m c]
  refine (shapeCast_apply _ shapeCasts_S4096x4096_S4x1024x4096 i (ix2 (brow (i 0) (i 1)) (i 2))
    (by rewrite [Shape.rowMajor_val_three, Shape.rowMajor_val_two]
        show (1024 * (i 0).val + (i 1).val) * 4096 + (i 2).val = ((i 0).val * 1024 + (i 1).val) * 4096 + (i 2).val
        omega)).trans ?_
  exact prodT_flat (m ((c : Thread nD τ).loc main_arg0)) (Arr.arrB m c) (Arr.arrA m c) (arrA_apply m c) i

/-- THE RUN: every weakly fair execution of the idealized kernel's @main ends with the result buffer at `result` of
    the data and the masked weight, the arguments unchanged. -/
theorem run : θ_run defs (onTc (τ := τ) (main (F := Ideal))) ⟨m, fun _ => 0, ρ⟩ fun r => ∀ c : Dev nD,
      r.2.mem ((c.tc : Thread nD τ).loc main_v15)
        = result (m ((c : Thread nD τ).loc main_arg0)) (wmask (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.RefValue.lean ====
/-
  The idealized reference's run, read as a value: its one contraction, read at an index, is `result` of the data and
  of the masked weight as the reference computes it.
-/
import proofs.«121753_j60327110639757_1_alg».proof.Proof.RefRead
import proofs.«121753_j60327110639757_1_alg».proof.Proof.Result

noncomputable section

open scoped BigOperators

namespace Cert.ReferenceIdeal.RefValue

open Cert.ReferenceIdeal Cert.ReferenceIdeal.ReadP Cert.MaskedMatmul
open Idealize.ShloMosaic Idealize.ShloMosaic.ValueIdx

/-- Entry `(b, s, n)` of the reference's result sums, over the 4096 columns `k`, the data at `(b, s, k)` times the
    masked weight at `(n, k)`. -/
theorem ref_eq (x0 : (⟨S4x1024x4096, .f32⟩ : BufTy).Contents (Elt Ideal)) (x1 : (⟨S4096x4096, .f32⟩ : BufTy).Contents (Elt Ideal))
    (x2 : (⟨S4096x4096, .i32⟩ : BufTy).Contents (Elt Ideal)) :
    val_main_v11 (F := Ideal) x0 x1 x2 = result x0 (val_main_v10 (F := Ideal) x1 x2) := by
  funext i
  rw [val_main_v11_apply]
  show _ = ∑ k : Fin 4096, x0 (ix3 (i 0) (i 1) k) * val_main_v10 (F := Ideal) x1 x2 (ix2 (i 2) k)
  refine Finset.sum_congr rfl fun k _ => ?_
  have el : lidx_main_v11 i k = ix3 (i 0) (i 1) k := funext fun a => Fin.ext (by
    match a with
    | ⟨0, _⟩ => rfl
    | ⟨1, _⟩ => rfl
    | ⟨2, _⟩ => rfl)
  have er : ridx_main_v11 i k = ix2 (i 2) k := funext fun a => Fin.ext (by
    match a with
    | ⟨0, _⟩ => rfl
    | ⟨1, _⟩ => rfl)
  rw [el, er]
  rfl

end Cert.ReferenceIdeal.RefValue

end
-- ==== Proof.lean ====
/-
  The kernel multiplies the data (4 × 1024 rows of 4096) by the transpose of the masked weight — the weight with every
  32 × 32 tile zeroed whose tile of the mask sums to nothing — on a 4 × 4 × 4 grid: each output block of 1024 × 1024
  is accumulated over the four runs of 1024 contracted columns, the accumulator reset at a run's first point and handed
  to the output at its last.  The reference computes the masked weight by the same operations and contracts all 4096
  columns at once.  Over the extended reals a change of float format is the identity and addition is commutative and
  associative, so the four partial sums added in order are the whole sum: the two results are one function of the
  arguments, entry `(b, s, n)` being `∑ k, data (b, s, k) * wmask (n, k)` (Result.lean).  No finiteness is used.

  The three frames: the kernel's two are its generated frame certificates, the reference's its run with the result
  dropped.  The idealization rewrote no operation, so there is nothing to preserve.
-/
import proofs.«121753_j60327110639757_1_alg».proof.Defs
import proofs.«121753_j60327110639757_1_alg».proof.Proof.Gen.Kernel
import proofs.«121753_j60327110639757_1_alg».proof.Proof.Gen.Kernel.Skeleton
import proofs.«121753_j60327110639757_1_alg».proof.Proof.Gen.Kernel.Launch
import proofs.«121753_j60327110639757_1_alg».proof.Proof.Gen.Kernel.Points
import proofs.«121753_j60327110639757_1_alg».proof.Proof.Gen.Kernel.Frame
import proofs.«121753_j60327110639757_1_alg».proof.Proof.Gen.KernelIdeal
import proofs.«121753_j60327110639757_1_alg».proof.Proof.Gen.KernelIdeal.Skeleton
import proofs.«121753_j60327110639757_1_alg».proof.Proof.Gen.KernelIdeal.Launch
import proofs.«121753_j60327110639757_1_alg».proof.Proof.Gen.KernelIdeal.Points
import proofs.«121753_j60327110639757_1_alg».proof.Proof.Gen.KernelIdeal.Frame
import proofs.«121753_j60327110639757_1_alg».proof.Proof.Gen.ReferenceIdeal
import proofs.«121753_j60327110639757_1_alg».proof.Proof.Gen.Pre_finite_inputs
import proofs.«121753_j60327110639757_1_alg».proof.Proof.KernelValue
import proofs.«121753_j60327110639757_1_alg».proof.Proof.RefValue
import Idealize.ShloMosaic.Adequacy
import Idealize.ShloMosaic.Init

noncomputable section

namespace Cert.Proof

open Idealize.ShloMosaic Idealize.ShloMosaic.TcCoe Idealize.SL.Sem Cert.MaskedMatmul

/-- The two programs build the masked weight by the same operations of the weight and the mask. -/
theorem wmask_eq {F : FTy → Type} [FloatOps F]
    (x1 : (⟨Cert.KernelIdeal.S4096x4096, .f32⟩ : BufTy).Contents (Elt F)) (x2 : (⟨Cert.KernelIdeal.S4096x4096, .i32⟩ : BufTy).Contents (Elt F)) :
    Cert.KernelIdeal.Val.wmask (F := F) x1 x2 = Cert.ReferenceIdeal.ReadP.val_main_v10 (F := F) x1 x2 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at `result` of the data and the masked weight of arguments that agree. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (Cert.KernelIdeal.Val.wmask (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, Cert.ReferenceIdeal.RefValue.ref_eq, (hagree c).1, (hagree c).2.1, (hagree c).2.2,
    ← wmask_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
